-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x512 : Shape := ⟨3, ![8, 8192, 512]⟩
abbrev S_ : Shape := ⟨0, ![]⟩

class Facts : Prop where
  bcast_S_S8x8192x512 : S_.BroadcastsInDim S8x8192x512 (![] : Fin 0 → Fin S8x8192x512.rank)
  reducesTo_S8x8192x512_S_d0_1_2 : S8x8192x512.ReducesTo [0, 1, 2] S_
  h_S_ : 0 < S_.numel

variable [Facts]

def fn {F : FTy → Type} [FloatOps F] (main_arg0 : FVec F S8x8192x512 .f32) (main_arg1 : FVec F S8x8192x512 .f32) (main_arg2 : FVec F S8x8192x512 .f32) : IVec S_ 1 :=
  let main_v0 : FVec F S8x8192x512 .f32 := Host.absf main_arg0
  let main_cst : FVec F S_ .f32 := constant S_ .f32 0x7F800000#32
  let main_v1 : FVec F S8x8192x512 .f32 := broadcastInDim S8x8192x512 ![] bcast_S_S8x8192x512 main_cst
  let main_v2 : IVec S8x8192x512 1 := cmpf .olt main_v0 main_v1
  let main_c : IVec S_ 1 := constantI S_ 1 1#1
  let main_v3 : IVec S_ 1 := (fun x v => Host.reduce IntOp.andi x v reducesTo_S8x8192x512_S_d0_1_2 h_S_) main_v2 main_c
  let main_v4 : FVec F S8x8192x512 .f32 := Host.absf main_arg1
  let main_cst_0 : FVec F S_ .f32 := constant S_ .f32 0x7F800000#32
  let main_v5 : FVec F S8x8192x512 .f32 := broadcastInDim S8x8192x512 ![] bcast_S_S8x8192x512 main_cst_0
  let main_v6 : IVec S8x8192x512 1 := cmpf .olt main_v4 main_v5
  let main_c_1 : IVec S_ 1 := constantI S_ 1 1#1
  let main_v7 : IVec S_ 1 := (fun x v => Host.reduce IntOp.andi x v reducesTo_S8x8192x512_S_d0_1_2 h_S_) main_v6 main_c_1
  let main_v8 : IVec S_ 1 := andi main_v3 main_v7
  let main_v9 : FVec F S8x8192x512 .f32 := Host.absf main_arg2
  let main_cst_2 : FVec F S_ .f32 := constant S_ .f32 0x7F800000#32
  let main_v10 : FVec F S8x8192x512 .f32 := broadcastInDim S8x8192x512 ![] bcast_S_S8x8192x512 main_cst_2
  let main_v11 : IVec S8x8192x512 1 := cmpf .olt main_v9 main_v10
  let main_c_3 : IVec S_ 1 := constantI S_ 1 1#1
  let main_v12 : IVec S_ 1 := (fun x v => Host.reduce IntOp.andi x v reducesTo_S8x8192x512_S_d0_1_2 h_S_) main_v11 main_c_3
  let main_v13 : IVec S_ 1 := andi main_v8 main_v12
  main_v13
-- ==== Kernel.lean ====
abbrev S8x8192x512 : Shape := ⟨3, ![8, 8192, 512]⟩
abbrev S8x8192 : Shape := ⟨2, ![8, 8192]⟩
abbrev S8x128x512 : Shape := ⟨3, ![8, 128, 512]⟩
abbrev S8x128 : Shape := ⟨2, ![8, 128]⟩
abbrev S8x128x1 : Shape := ⟨3, ![8, 128, 1]⟩
abbrev S8x16384 : Shape := ⟨2, ![8, 16384]⟩

abbrev nBuf : Space → Nat
  | .hbm => 6
  | .vmem => 10
  | .smem => 0
  | _ => 0

abbrev bufTy : (tb : Table) → Fin (tcTables nBuf tb) → BufTy
  | .hbm, ⟨0, _⟩ => ⟨S8x8192x512, .f32⟩
  | .hbm, ⟨1, _⟩ => ⟨S8x8192x512, .f32⟩
  | .hbm, ⟨2, _⟩ => ⟨S8x8192x512, .f32⟩
  | .hbm, ⟨3, _⟩ => ⟨S8x8192, .f32⟩
  | .hbm, ⟨4, _⟩ => ⟨S8x8192, .f32⟩
  | .hbm, ⟨5, _⟩ => ⟨S8x16384, .f32⟩
  | .local _ .vmem, ⟨0, _⟩ => ⟨S8x128x512, .f32⟩
  | .local _ .vmem, ⟨1, _⟩ => ⟨S8x128x512, .f32⟩
  | .local _ .vmem, ⟨2, _⟩ => ⟨S8x128x512, .f32⟩
  | .local _ .vmem, ⟨3, _⟩ => ⟨S8x128x512, .f32⟩
  | .local _ .vmem, ⟨4, _⟩ => ⟨S8x128x512, .f32⟩
  | .local _ .vmem, ⟨5, _⟩ => ⟨S8x128x512, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | _, _ => ⟨S8x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S8x128x512_S8x128x512_0_0_0 : ∀ a, (![0, 0, 0] : Fin 3 → Nat) a + S8x128x512.size a ≤ S8x128x512.size a
  h_S8x128x512 : 0 < S8x128x512.numel
  reduces_S8x128x512_S8x128 : S8x128x512.Reduces [2] S8x128
  shapeCasts_S8x128_S8x128x1 : S8x128.ShapeCasts S8x128x1
  broadcasts_S8x128x1_S8x128x512 : S8x128x1.Broadcasts S8x128x512
  inb_S8x128_S8x128_0_0 : ∀ a, (![0, 0] : Fin 2 → Nat) a + S8x128.size a ≤ S8x128.size a
  h_S8x128 : 0 < S8x128.numel
  concatenates_S8x8192_S8x8192_S8x16384_d1 : Shape.Concatenates [S8x8192, S8x8192] S8x16384 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x512.size a ≤ S8x8192x512.size a
  hwx0_0 : ∀ i : grid0.Coords, EltTy.bits .f32 = 32 ∨ (Rect.block (s := S8x8192x512) S8x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128x512.size a ≤ S8x8192x512.size a
  hwx0_1 : ∀ i : grid0.Coords, EltTy.bits .f32 = 32 ∨ (Rect.block (s := S8x8192x512) S8x128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128x512.size a ≤ S8x8192x512.size a
  hwx0_2 : ∀ i : grid0.Coords, EltTy.bits .f32 = 32 ∨ (Rect.block (s := S8x8192x512) S8x128x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S8x8192.size a
  hwx0_3 : ∀ i : grid0.Coords, EltTy.bits .f32 = 32 ∨ (Rect.block (s := S8x8192) S8x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S8x8192.size a
  hwx0_4 : ∀ i : grid0.Coords, EltTy.bits .f32 = 32 ∨ (Rect.block (s := S8x8192) S8x128.size (cc0_transform_4 i) (hinb0_4 i)).WholeWords (EltTy.packing .f32)

variable [Facts₀]

abbrev win0_0 : Pipeline.Window sig grid0 :=
  Pipeline.Window.ofSpec (Memref.whole main_arg0) S8x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x128x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S8x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x8192x512 : Shape := ⟨3, ![8, 8192, 512]⟩
abbrev S_ : Shape := ⟨0, ![]⟩
abbrev S8x8192 : Shape := ⟨2, ![8, 8192]⟩
abbrev S8x8192x1 : Shape := ⟨3, ![8, 8192, 1]⟩
abbrev S8x16384 : Shape := ⟨2, ![8, 16384]⟩

abbrev nBuf : Space → Nat
  | .hbm => 40
  | .vmem => 0
  | .smem => 0
  | _ => 0

abbrev bufTy : (tb : Table) → Fin (tcTables nBuf tb) → BufTy
  | .hbm, ⟨0, _⟩ => ⟨S8x8192x512, .f32⟩
  | .hbm, ⟨1, _⟩ => ⟨S8x8192x512, .f32⟩
  | .hbm, ⟨2, _⟩ => ⟨S8x8192x512, .f32⟩
  | .hbm, ⟨3, _⟩ => ⟨S8x8192x512, .f32⟩
  | .hbm, ⟨4, _⟩ => ⟨S_, .f32⟩
  | .hbm, ⟨5, _⟩ => ⟨S8x8192, .f32⟩
  | .hbm, ⟨6, _⟩ => ⟨S8x8192x1, .f32⟩
  | .hbm, ⟨7, _⟩ => ⟨S8x8192x1, .f32⟩
  | .hbm, ⟨8, _⟩ => ⟨S_, .f32⟩
  | .hbm, ⟨9, _⟩ => ⟨S8x8192x1, .f32⟩
  | .hbm, ⟨10, _⟩ => ⟨S8x8192x1, .f32⟩
  | .hbm, ⟨11, _⟩ => ⟨S8x8192x512, .f32⟩
  | .hbm, ⟨12, _⟩ => ⟨S8x8192x512, .f32⟩
  | .hbm, ⟨13, _⟩ => ⟨S8x8192x512, .f32⟩
  | .hbm, ⟨14, _⟩ => ⟨S_, .f32⟩
  | .hbm, ⟨15, _⟩ => ⟨S8x8192, .f32⟩
  | .hbm, ⟨16, _⟩ => ⟨S8x8192x1, .f32⟩
  | .hbm, ⟨17, _⟩ => ⟨S8x8192x1, .f32⟩
  | .hbm, ⟨18, _⟩ => ⟨S_, .f32⟩
  | .hbm, ⟨19, _⟩ => ⟨S8x8192x1, .f32⟩
  | .hbm, ⟨20, _⟩ => ⟨S8x8192x1, .f32⟩
  | .hbm, ⟨21, _⟩ => ⟨S8x8192x512, .f32⟩
  | .hbm, ⟨22, _⟩ => ⟨S8x8192x512, .f32⟩
  | .hbm, ⟨23, _⟩ => ⟨S8x8192x512, .f32⟩
  | .hbm, ⟨24, _⟩ => ⟨S_, .f32⟩
  | .hbm, ⟨25, _⟩ => ⟨S8x8192, .f32⟩
  | .hbm, ⟨26, _⟩ => ⟨S8x8192x512, .f32⟩
  | .hbm, ⟨27, _⟩ => ⟨S_, .f32⟩
  | .hbm, ⟨28, _⟩ => ⟨S8x8192, .f32⟩
  | .hbm, ⟨29, _⟩ => ⟨S8x8192x1, .f32⟩
  | .hbm, ⟨30, _⟩ => ⟨S8x8192x1, .f32⟩
  | .hbm, ⟨31, _⟩ => ⟨S_, .f32⟩
  | .hbm, ⟨32, _⟩ => ⟨S8x8192x1, .f32⟩
  | .hbm, ⟨33, _⟩ => ⟨S8x8192x1, .f32⟩
  | .hbm, ⟨34, _⟩ => ⟨S8x8192x512, .f32⟩
  | .hbm, ⟨35, _⟩ => ⟨S8x8192x512, .f32⟩
  | .hbm, ⟨36, _⟩ => ⟨S8x8192x512, .f32⟩
  | .hbm, ⟨37, _⟩ => ⟨S_, .f32⟩
  | .hbm, ⟨38, _⟩ => ⟨S8x8192, .f32⟩
  | .hbm, ⟨39, _⟩ => ⟨S8x16384, .f32⟩
  | _, _ => ⟨S8x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]

class Facts₀ : Prop where
  reducesTo_S8x8192x512_S8x8192_d2 : S8x8192x512.ReducesTo [2] S8x8192
  h_S_ : 0 < S_.numel
  bcast_S8x8192_S8x8192x1_0_1 : S8x8192.BroadcastsInDim S8x8192x1 (![0, 1] : Fin 2 → Fin S8x8192x1.rank)
  bcast_S_S8x8192x1 : S_.BroadcastsInDim S8x8192x1 (![] : Fin 0 → Fin S8x8192x1.rank)
  bcast_S8x8192x1_S8x8192x512_0_1_2 : S8x8192x1.BroadcastsInDim S8x8192x512 (![0, 1, 2] : Fin 3 → Fin S8x8192x512.rank)
  concatenates_S8x8192_S8x8192_S8x16384_d1 : Shape.Concatenates [S8x8192, S8x8192] S8x16384 1

variable [Facts₀]

class Facts : Prop extends Facts₀ where

variable [Facts]
-- ==== Proof.RowCosine.lean ====
/-
  The mathematics both programs compute, stated once over the extended reals.

  A ROW is a vector of 512 extended reals. Its FLOORED NORM is the larger of its Euclidean norm, the square root of the
  sum of its squares, and a fixed positive floor (the single-precision word nearest to 1e-12, kept as its word: both
  programs hold the same word, so it is never evaluated). A row divided entry by entry by its floored norm is the
  row NORMALISED. The COSINE of two rows is the sum over the 512 positions of the products of their normalised
  entries.

  For a rank-3 array of rows (any two leading extents, last axis 512) `rowsCosine x y` is the rank-2 array whose entry
  at (b, n) is the cosine of row (b, n) of `x` and row (b, n) of `y`. The same definition serves a block of the array
  and the whole array, and row (b, n) of a block at row offset o is row (b, o + n) of the array: that is all the
  tiling argument needs.

  The result of both programs is the two score arrays — first argument against second, first against third — laid
  side by side along the second axis (`scoresSideBySide`).
-/
import Idealize.ShloMosaic.PureOps.Ideal
import Idealize.ShloMosaic.Lib.ValueIdx

noncomputable section

open scoped BigOperators

namespace Cert.RowCosine

open Idealize.ShloMosaic

/-- The floor under a norm, as an extended real: the value of the word both programs compare against. -/
abbrev normFloor : EReal := Ideal.ofBits .f32 0x2B8CBCCC#32

/-- The Euclidean norm of a row, floored. -/
def flooredNorm (x : Fin 512 → EReal) : EReal := max (Ideal.sqrt (∑ k, x k * x k)) normFloor

/-- Entry `k` of the row normalised: the entry over the row's floored norm. -/
def normalised (x : Fin 512 → EReal) (k : Fin 512) : EReal := Ideal.div (x k) (flooredNorm x)

/-- The cosine of two rows: the sum of the products of their normalised entries. -/
def rowCosine (x y : Fin 512 → EReal) : EReal := ∑ k, normalised x k * normalised y k

/-- The index of entry `k` of the row that a rank-2 index names. -/
abbrev rowAt {n0 n1 : Nat} (i : (⟨2, ![n0, n1]⟩ : Shape).Idx) (k : Fin 512) : (⟨3, ![n0, n1, 512]⟩ : Shape).Idx :=
  fun a => match a with
  | ⟨0, _⟩ => ⟨(i 0).val, (i 0).isLt⟩
  | ⟨1, _⟩ => ⟨(i 1).val, (i 1).isLt⟩
  | ⟨2, _⟩ => ⟨k.val, k.isLt⟩

/-- Row `i` of a rank-3 array of rows. -/
abbrev rowOf {n0 n1 : Nat} (x : (⟨3, ![n0, n1, 512]⟩ : Shape).Idx → EReal) (i : (⟨2, ![n0, n1]⟩ : Shape).Idx) : Fin 512 → EReal :=
  fun k => x (rowAt i k)

/-- The array of cosines of corresponding rows of two arrays of rows. -/
def rowsCosine {n0 n1 : Nat} (x y : (⟨3, ![n0, n1, 512]⟩ : Shape).Idx → EReal) : (⟨2, ![n0, n1]⟩ : Shape).Idx → EReal :=
  fun i => rowCosine (rowOf x i) (rowOf y i)

/-- Two pairs of arrays with the same rows at two indices have the same cosine there: the cosine at an index reads
    nothing but the two rows the index names. -/
theorem rowsCosine_congr {n0 n1 p0 p1 : Nat} (x y : (⟨3, ![n0, n1, 512]⟩ : Shape).Idx → EReal)
    (x' y' : (⟨3, ![p0, p1, 512]⟩ : Shape).Idx → EReal) (i : (⟨2, ![n0, n1]⟩ : Shape).Idx) (j : (⟨2, ![p0, p1]⟩ : Shape).Idx)
    (hx : ∀ k, x (rowAt i k) = x' (rowAt j k)) (hy : ∀ k, y (rowAt i k) = y' (rowAt j k)) :
    rowsCosine x y i = rowsCosine x' y' j := by
  unfold rowsCosine
  rw [show rowOf x i = rowOf x' j from funext hx, show rowOf y i = rowOf y' j from funext hy]

/-- Two [8, 8192] arrays laid side by side along the second axis fill an [8, 16384] array. -/
theorem sideBySide_shapes : Shape.Concatenates [(⟨2, ![8, 8192]⟩ : Shape), ⟨2, ![8, 8192]⟩] ⟨2, ![8, 16384]⟩ 1 := by decide

/-- THE RESULT, as one function of the three argument arrays: the cosines of the first argument's rows with the
    second's, and beside them, along the second axis, those with the third's. -/
def scoresSideBySide (x0 x1 x2 : (⟨3, ![8, 8192, 512]⟩ : Shape).Idx → EReal) : (⟨2, ![8, 16384]⟩ : Shape).Idx → EReal :=
  concatenate ⟨2, ![8, 16384]⟩ 1 [⟨⟨2, ![8, 8192]⟩, rowsCosine x0 x1⟩, ⟨⟨2, ![8, 8192]⟩, rowsCosine x0 x2⟩] sideBySide_shapes

end Cert.RowCosine

end
-- ==== Proof.RefScores.lean ====
/-
  What the reference computes, array by array, read entry by entry.

  The reference takes, for each of its three arguments, the sum of squares along the last axis (a host sum started
  from the zero word, which is the extended real 0), keeps it as a trailing unit axis, takes the square root,
  floors it, spreads it back over the last axis and divides the argument by it: at position k of row (b, n) that is
  entry k of the row normalised (Proof/RowCosine.lean). It does so three times with the same operations and the
  same words, so the three normalised arrays are one function of their argument; the reading is done once. The two
  score arrays are the host sums along the last axis of the products of the first normalised array with the second
  and with the third: the arrays of row cosines.
-/
import proofs.«136947_j73598559584743_1_alg».proof.Proof.RefReadP
import proofs.«136947_j73598559584743_1_alg».proof.Proof.RowCosine
import Idealize.ShloMosaic.PureOps.Ideal.Laws

noncomputable section

open scoped BigOperators

namespace Cert.ReferenceIdeal.RefScores

open Cert.ReferenceIdeal Cert.ReferenceIdeal.ReadP Cert.RowCosine Idealize.ShloMosaic

/-- Row `i`'s sum of squares, as the reference takes it: the sum over the row's positions. -/
theorem sumSquares_apply (x : FVec Ideal S8x8192x512 .f32) (i : S8x8192.Idx) :
    val_main_v1 (F := Ideal) x i = ∑ k : Fin 512, rowOf x i k * rowOf x i k := by
  rw [val_main_v1_apply, val_main_cst_apply]
  show Ideal.ofBits .f32 0x00000000#32 + _ = _
  rw [Ideal.ofBits_zero_f32, zero_add]
  refine Finset.sum_congr rfl fun k _ => ?_
  rw [show idx_main_v1 i k = rowAt i k from
    funext fun a => Fin.ext (by match a with | ⟨0, _⟩ => rfl | ⟨1, _⟩ => rfl | ⟨2, _⟩ => rfl)]
  rfl

/-- The reference's normalised array at position `k` of row `i`: entry `k` of that row normalised. -/
theorem normalised_apply (x : FVec Ideal S8x8192x512 .f32) (i : S8x8192.Idx) (k : Fin 512) :
    val_main_v7 (F := Ideal) x (rowAt i k) = normalised (rowOf x i) k := by
  rw [val_main_v7_apply, val_main_v6_apply, val_main_v5_apply, val_main_v3_apply, val_main_v2_apply, val_main_v4_apply,
    val_main_cst_0_apply,
    show idx_main_v2 (idx_main_v6 (rowAt i k)) = i from
      funext fun a => Fin.ext (by match a with | ⟨0, _⟩ => rfl | ⟨1, _⟩ => rfl),
    sumSquares_apply]
  rfl

/-- The second and third arguments are normalised by the same operations and words as the first. -/
theorem second_normalised (x : FVec Ideal S8x8192x512 .f32) : val_main_v15 (F := Ideal) x = val_main_v7 (F := Ideal) x := rfl
theorem third_normalised (x : FVec Ideal S8x8192x512 .f32) : val_main_v25 (F := Ideal) x = val_main_v7 (F := Ideal) x := rfl

/-- THE FIRST SCORE ARRAY: the cosines of the rows of the first and second arguments. -/
theorem scoresAB_eq (x0 x1 : FVec Ideal S8x8192x512 .f32) :
    val_main_v17 (F := Ideal) x0 x1 = rowsCosine (n0 := 8) (n1 := 8192) x0 x1 := by
  funext i
  rw [val_main_v17_apply, val_main_cst_3_apply]
  show Ideal.ofBits .f32 0x00000000#32 + _ = _
  rw [Ideal.ofBits_zero_f32, zero_add]
  unfold rowsCosine rowCosine
  refine Finset.sum_congr rfl fun k _ => ?_
  rw [show idx_main_v17 i k = rowAt i k from
    funext fun a => Fin.ext (by match a with | ⟨0, _⟩ => rfl | ⟨1, _⟩ => rfl | ⟨2, _⟩ => rfl),
    val_main_v16_apply, second_normalised]
  exact congrArg₂ (· * ·) (normalised_apply x0 i k) (normalised_apply x1 i k)

/-- THE SECOND SCORE ARRAY: the cosines of the rows of the first and third arguments. -/
theorem scoresAC_eq (x0 x2 : FVec Ideal S8x8192x512 .f32) :
    val_main_v27 (F := Ideal) x0 x2 = rowsCosine (n0 := 8) (n1 := 8192) x0 x2 := by
  funext i
  rw [val_main_v27_apply, val_main_cst_6_apply]
  show Ideal.ofBits .f32 0x00000000#32 + _ = _
  rw [Ideal.ofBits_zero_f32, zero_add]
  unfold rowsCosine rowCosine
  refine Finset.sum_congr rfl fun k _ => ?_
  rw [show idx_main_v27 i k = rowAt i k from
    funext fun a => Fin.ext (by match a with | ⟨0, _⟩ => rfl | ⟨1, _⟩ => rfl | ⟨2, _⟩ => rfl),
    val_main_v26_apply, third_normalised]
  exact congrArg₂ (· * ·) (normalised_apply x0 i k) (normalised_apply x2 i k)

end Cert.ReferenceIdeal.RefScores

end
-- ==== Proof.BlockScores.lean ====
/-
  What one grid point's block of scores holds, entry by entry.

  The body loads three blocks of 8 x 128 rows (512 entries each) and stores two blocks of 8 x 128 scores. Read at
  the ideal values, each stored entry (b, r) is the cosine (Proof/RowCosine.lean) of row (b, r) of the first block
  and row (b, r) of the second, respectively third, block:
  * a lane sum over the last axis is the sum over the row's 512 positions;
  * the column of floored norms — the lane sum of squares, recast to a trailing unit axis, its square root taken,
    floored — spread back over the 512 positions is, at every position of row (b, r), that row's floored norm;
  * so the block divided by it is the block of rows normalised, and the lane sum of the product of two such blocks
    is the rows' cosine.
-/
import proofs.«136947_j73598559584743_1_alg».proof.Proof.Gen.KernelIdeal.Skeleton
import proofs.«136947_j73598559584743_1_alg».proof.Proof.RowCosine
import Idealize.ShloMosaic.Lib.Pipeline.Value
import Idealize.ShloMosaic.Lib.ValueIdx
import Idealize.ShloMosaic.PureOps.Ideal.Laws

noncomputable section

open scoped BigOperators

namespace Cert.KernelIdeal.BlockScores

open Cert.KernelIdeal Cert.KernelIdeal.Gen Cert.RowCosine Idealize.ShloMosaic Idealize.ShloMosaic.ValueIdx

/-- The index, in the column of per-row values, of the row a rank-2 index names. -/
abbrev colAt (j : S8x128.Idx) : S8x128x1.Idx := fun a => match a with
  | ⟨0, _⟩ => ⟨(j 0).val, (j 0).isLt⟩
  | ⟨1, _⟩ => ⟨(j 1).val, (j 1).isLt⟩
  | ⟨2, _⟩ => ⟨0, Nat.one_pos⟩

/-- A lane sum over the last axis of a block, at row `j`: the sum over the row's 512 positions. -/
theorem laneSum_apply (src : FVec Ideal S8x128x512 .f32) (h : S8x128x512.Reduces [2] S8x128)
    (hφ : FKind.Formats .f32) (hacc : (0x00000000#32 : BitVec 32) = FKind.add.neutral .f32 hφ) (j : S8x128.Idx) :
    multiReduction .add [2] S8x128 src 0x00000000#32 h hφ hacc j = ∑ k : Fin 512, src (rowAt j k) := by
  refine (Ideal.multiReduction_add_single src _ h hφ hacc j).trans ?_
  refine Finset.sum_congr rfl fun k _ => congrArg src ?_
  exact funext fun a => Fin.ext (by match a with | ⟨0, _⟩ => rfl | ⟨1, _⟩ => rfl | ⟨2, _⟩ => rfl)

/-- The column of a block's floored row norms, spread back over the rows' positions, read at position `k` of row
    `j`: that row's floored norm, whatever `k`. -/
theorem flooredNorms_apply (x : FVec Ideal S8x128x512 .f32) (h : S8x128x512.Reduces [2] S8x128)
    (hφ : FKind.Formats .f32) (hacc : (0x00000000#32 : BitVec 32) = FKind.add.neutral .f32 hφ)
    (hc : S8x128.ShapeCasts S8x128x1) (hb : S8x128x1.Broadcasts S8x128x512) (j : S8x128.Idx) (k : Fin 512) :
    broadcastTo S8x128x512
        (maximumf (sqrt (shapeCast S8x128x1 (multiReduction .add [2] S8x128 (mulf x x) 0x00000000#32 h hφ hacc) hc))
          (broadcast S8x128x1 (Scalar.ofBits (F := Ideal) .f32 0x2B8CBCCC#32))) hb (rowAt j k)
      = flooredNorm (rowOf x j) := by
  refine (broadcastTo_apply _ hb (rowAt j k) (colAt j) (fun a => ?_)).trans ?_
  · match a with
    | ⟨0, _⟩ => show (j 0).val = if (8 : Nat) = 1 then 0 else (j 0).val; rw [if_neg (by decide)]
    | ⟨1, _⟩ => show (j 1).val = if (128 : Nat) = 1 then 0 else (j 1).val; rw [if_neg (by decide)]
    | ⟨2, _⟩ => show 0 = if (1 : Nat) = 1 then 0 else k.val; rw [if_pos rfl]
  · show max (Ideal.sqrt (shapeCast S8x128x1 (multiReduction .add [2] S8x128 (mulf x x) 0x00000000#32 h hφ hacc) hc (colAt j))) normFloor
        = flooredNorm (rowOf x j)
    unfold flooredNorm
    refine congrArg (fun z => max (Ideal.sqrt z) normFloor) ?_
    refine (shapeCast_apply _ hc (colAt j) j ?_).trans ?_
    · rw [Shape.rowMajor_val_two, Shape.rowMajor_val_three]
      show (j 0).val * 128 + (j 1).val = ((j 0).val * 128 + (j 1).val) * 1 + 0
      omega
    · exact laneSum_apply (mulf x x) h hφ hacc j

/-- The block divided by its spread floored norms holds, at position `k` of row `j`, entry `k` of that row normalised. -/
theorem pay1_apply (x : FVec Ideal S8x128x512 .f32) (j : S8x128.Idx) (k : Fin 512) :
    k0_pay1 (F := Ideal) x (rowAt j k) = normalised (rowOf x j) k := by
  unfold k0_pay1
  exact congrArg (Ideal.div (x (rowAt j k))) (flooredNorms_apply x _ _ _ _ _ j k)

/-- THE FIRST STORED BLOCK: the cosines of the rows of the first and second loaded blocks. -/
theorem pay2_eq (x0 x1 : FVec Ideal S8x128x512 .f32) :
    k0_pay2 (F := Ideal) x0 x1 = rowsCosine (n0 := 8) (n1 := 128) x0 x1 := by
  funext j
  unfold k0_pay2
  refine (laneSum_apply _ _ _ _ j).trans ?_
  unfold rowsCosine rowCosine
  refine Finset.sum_congr rfl fun k _ => ?_
  exact congrArg₂ (· * ·) (pay1_apply x0 j k)
    (congrArg (Ideal.div (x1 (rowAt j k))) (flooredNorms_apply x1 _ _ _ _ _ j k))

/-- THE SECOND STORED BLOCK: the cosines of the rows of the first and third loaded blocks. -/
theorem pay3_eq (x0 x2 : FVec Ideal S8x128x512 .f32) :
    k0_pay3 (F := Ideal) x0 x2 = rowsCosine (n0 := 8) (n1 := 128) x0 x2 := by
  funext j
  unfold k0_pay3
  refine (laneSum_apply _ _ _ _ j).trans ?_
  unfold rowsCosine rowCosine
  refine Finset.sum_congr rfl fun k _ => ?_
  exact congrArg₂ (· * ·) (pay1_apply x0 j k)
    (congrArg (Ideal.div (x2 (rowAt j k))) (flooredNorms_apply x2 _ _ _ _ _ j k))

end Cert.KernelIdeal.BlockScores

end
-- ==== Proof.ArrayScores.lean ====
/-
  The kernel program's result as one function of its three argument arrays.

  The grid has 64 points. At point t each input window stages rows 128 t … 128 t + 127 (all 8 leading indices, all
  512 positions) of its argument, and each output window writes back columns 128 t … 128 t + 127 (all 8 rows) of
  its score array: every window's block index is (0, t, 0), respectively (0, t), decided once over the grid.
  So position k of row (b, r) of an input block at point t is position k of row (b, 128 t + r) of the argument, the
  score the body stores at (b, r) is the cosine of rows (b, 128 t + r) of two arguments (Proof/BlockScores.lean), and
  that is the entry of the array of row cosines at the place (b, 128 t + r) the block is written to. Entry (b, n) of
  a score array lies in the block of point n / 128, so the 64 blocks cover it: after the region each score array is
  the array of row cosines. The one host operation after the region lays the two side by side.
-/
import proofs.«136947_j73598559584743_1_alg».proof.Proof.Gen.KernelIdeal.Frame
import proofs.«136947_j73598559584743_1_alg».proof.Proof.BlockScores
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.ArrayScores

open Cert.KernelIdeal Cert.KernelIdeal.Gen Cert.RowCosine

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The three argument arrays as the region finds them, and the two arrays of row cosines. -/
abbrev argS (c : Dev nD) : FVec Ideal S8x8192x512 .f32 := V m c main_arg0
abbrev argRl (c : Dev nD) : FVec Ideal S8x8192x512 .f32 := V m c main_arg1
abbrev argFk (c : Dev nD) : FVec Ideal S8x8192x512 .f32 := V m c main_arg2
abbrev scoresRl (c : Dev nD) : FVec Ideal S8x8192 .f32 := rowsCosine (n0 := 8) (n1 := 8192) (argS m c) (argRl m c)
abbrev scoresFk (c : Dev nD) : FVec Ideal S8x8192 .f32 := rowsCosine (n0 := 8) (n1 := 8192) (argS m c) (argFk m c)

/-- Every window's block index at point `t`, decided over the 64 points: `t` along the axis of length 8192, zero elsewhere. -/
theorem idx_facts : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = t.val ∧ win0_1.index t (2 : Fin 3) = 0
    ∧ win0_2.index t (0 : Fin 3) = 0 ∧ win0_2.index t (1 : Fin 3) = t.val ∧ win0_2.index t (2 : Fin 3) = 0
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

/-! ## Rows of the input blocks are rows of the arguments -/

/-- Position `k` of row `y` of the first input block at point `t` is position `k` of the first argument's row at the
    place `y` of the first output block is written to. -/
theorem blockS_row (c : Dev nD) (t : Fin cfg0.N) (y : S8x128.Idx) (k : Fin 512) :
    (iblk m c 0 t : FVec Ideal S8x128x512 .f32) (rowAt y k)
      = argS m c (rowAt (n0 := 8) (n1 := 8192) (((cfg0.win 3).blk t).view.emb y) k) := by
  obtain ⟨e0, e1, e2, -, -, -, -, -, -, f0, f1, -, -⟩ := idx_facts t
  show V m c main_arg0 (((cfg0.win 0).blk t).view.emb (rowAt y k))
      = V m c main_arg0 (rowAt (n0 := 8) (n1 := 8192) (((cfg0.win 3).blk t).view.emb y) k)
  refine congrArg (V m c main_arg0) (funext fun a => Fin.ext ?_)
  match a with
  | ⟨0, _⟩ => show win0_0.index t (0 : Fin 3) * 8 + 1 * (y 0).val = win0_3.index t (0 : Fin 2) * 8 + 1 * (y 0).val; omega
  | ⟨1, _⟩ => show win0_0.index t (1 : Fin 3) * 128 + 1 * (y 1).val = win0_3.index t (1 : Fin 2) * 128 + 1 * (y 1).val; omega
  | ⟨2, _⟩ => show win0_0.index t (2 : Fin 3) * 512 + 1 * k.val = k.val; omega

/-- The same for the second input block and the second argument. -/
theorem blockRl_row (c : Dev nD) (t : Fin cfg0.N) (y : S8x128.Idx) (k : Fin 512) :
    (iblk m c 1 t : FVec Ideal S8x128x512 .f32) (rowAt y k)
      = argRl m c (rowAt (n0 := 8) (n1 := 8192) (((cfg0.win 3).blk t).view.emb y) k) := by
  obtain ⟨-, -, -, e0, e1, e2, -, -, -, f0, f1, -, -⟩ := idx_facts t
  show V m c main_arg1 (((cfg0.win 1).blk t).view.emb (rowAt y k))
      = V m c main_arg1 (rowAt (n0 := 8) (n1 := 8192) (((cfg0.win 3).blk t).view.emb y) k)
  refine congrArg (V m c main_arg1) (funext fun a => Fin.ext ?_)
  match a with
  | ⟨0, _⟩ => show win0_1.index t (0 : Fin 3) * 8 + 1 * (y 0).val = win0_3.index t (0 : Fin 2) * 8 + 1 * (y 0).val; omega
  | ⟨1, _⟩ => show win0_1.index t (1 : Fin 3) * 128 + 1 * (y 1).val = win0_3.index t (1 : Fin 2) * 128 + 1 * (y 1).val; omega
  | ⟨2, _⟩ => show win0_1.index t (2 : Fin 3) * 512 + 1 * k.val = k.val; omega

/-- The second output block is written to the same place of its array as the first of its. -/
theorem place_eq (t : Fin cfg0.N) (y : S8x128.Idx) :
    (((cfg0.win 4).blk t).view.emb y : S8x8192.Idx) = ((cfg0.win 3).blk t).view.emb y := by
  obtain ⟨-, -, -, -, -, -, -, -, -, f0, f1, g0, g1⟩ := idx_facts t
  refine funext fun a => Fin.ext ?_
  match a with
  | ⟨0, _⟩ => show win0_4.index t (0 : Fin 2) * 8 + 1 * (y 0).val = win0_3.index t (0 : Fin 2) * 8 + 1 * (y 0).val; omega
  | ⟨1, _⟩ => show win0_4.index t (1 : Fin 2) * 128 + 1 * (y 1).val = win0_3.index t (1 : Fin 2) * 128 + 1 * (y 1).val; omega

/-- The same for the third input block and the third argument. -/
theorem blockFk_row (c : Dev nD) (t : Fin cfg0.N) (y : S8x128.Idx) (k : Fin 512) :
    (iblk m c 2 t : FVec Ideal S8x128x512 .f32) (rowAt y k)
      = argFk m c (rowAt (n0 := 8) (n1 := 8192) (((cfg0.win 3).blk t).view.emb y) k) := by
  obtain ⟨-, -, -, -, -, -, e0, e1, e2, f0, f1, -, -⟩ := idx_facts t
  show V m c main_arg2 (((cfg0.win 2).blk t).view.emb (rowAt y k))
      = V m c main_arg2 (rowAt (n0 := 8) (n1 := 8192) (((cfg0.win 3).blk t).view.emb y) k)
  refine congrArg (V m c main_arg2) (funext fun a => Fin.ext ?_)
  match a with
  | ⟨0, _⟩ => show win0_2.index t (0 : Fin 3) * 8 + 1 * (y 0).val = win0_3.index t (0 : Fin 2) * 8 + 1 * (y 0).val; omega
  | ⟨1, _⟩ => show win0_2.index t (1 : Fin 3) * 128 + 1 * (y 1).val = win0_3.index t (1 : Fin 2) * 128 + 1 * (y 1).val; omega
  | ⟨2, _⟩ => show win0_2.index t (2 : Fin 3) * 512 + 1 * k.val = k.val; omega

/-! ## What each point writes back -/

/-- Point `t` writes back, to the first score array, block `t` of the array of row cosines of the first two arguments. -/
theorem flushedRl_eq (c : Dev nD) (t : Fin cfg0.N) :
    (dats m 0 c).flushed 3 t = ((cfg0.win 3).blk t).view.read (Elt Ideal) (scoresRl m c) := by
  show (cfg0.win 3).cut (grid0.coords t) ((dats m 0 c).after 3 t) = _
  rw [after0_3]
  unfold out0_3
  rw [View.canon_unit_zero hz2]
  simp only [View.ld_unit_zero (S := S8x128x512) hz3]
  funext y
  show k0_pay2 (F := Ideal) (iblk m c 0 t) (iblk m c 1 t) y
      = rowsCosine (n0 := 8) (n1 := 8192) (argS m c) (argRl m c) (((cfg0.win 3).blk t).view.emb y)
  refine (congrFun (BlockScores.pay2_eq (iblk m c 0 t) (iblk m c 1 t)) y).trans ?_
  exact rowsCosine_congr (n0 := 8) (n1 := 128) (p0 := 8) (p1 := 8192) (iblk m c 0 t) (iblk m c 1 t) (argS m c) (argRl m c) y
    (((cfg0.win 3).blk t).view.emb y) (blockS_row m c t y) (blockRl_row m c t y)

/-- Point `t` writes back, to the second score array, block `t` of the array of row cosines of the first and third arguments. -/
theorem flushedFk_eq (c : Dev nD) (t : Fin cfg0.N) :
    (dats m 0 c).flushed 4 t = ((cfg0.win 4).blk t).view.read (Elt Ideal) (scoresFk m c) := by
  show (cfg0.win 4).cut (grid0.coords t) ((dats m 0 c).after 4 t) = _
  rw [after0_4]
  unfold out0_4
  rw [View.canon_unit_zero hz2]
  simp only [View.ld_unit_zero (S := S8x128x512) hz3]
  funext y
  show k0_pay3 (F := Ideal) (iblk m c 0 t) (iblk m c 2 t) y
      = rowsCosine (n0 := 8) (n1 := 8192) (argS m c) (argFk m c) (((cfg0.win 4).blk t).view.emb y)
  rw [place_eq t y]
  refine (congrFun (BlockScores.pay3_eq (iblk m c 0 t) (iblk m c 2 t)) y).trans ?_
  exact rowsCosine_congr (n0 := 8) (n1 := 128) (p0 := 8) (p1 := 8192) (iblk m c 0 t) (iblk m c 2 t) (argS m c) (argFk m c) y
    (((cfg0.win 3).blk t).view.emb y) (blockS_row m c t y) (blockFk_row m c t y)

/-! ## The blocks cover the score arrays -/

theorem mem_blkRl (t : Fin cfg0.N) (i : S8x8192.Idx) :
    i ∈ ((cfg0.win 3).blk t).view.set ↔ ∀ a : Fin 2, win0_3.index t a * S8x128.size a ≤ (i a).val ∧ (i a).val < win0_3.index t a * S8x128.size a + S8x128.size a := by
  show i ∈ ((View.whole main_v0_0).slice (win0_3.rect t)).set ↔ _
  rw [View.set_slice_whole, Rect.mem_set_unit]
  exact Iff.rfl

theorem mem_blkFk (t : Fin cfg0.N) (i : S8x8192.Idx) :
    i ∈ ((cfg0.win 4).blk t).view.set ↔ ∀ a : Fin 2, win0_4.index t a * S8x128.size a ≤ (i a).val ∧ (i a).val < win0_4.index t a * S8x128.size a + S8x128.size a := by
  show i ∈ ((View.whole main_v0_1).slice (win0_4.rect t)).set ↔ _
  rw [View.set_slice_whole, Rect.mem_set_unit]
  exact Iff.rfl

/-- Entry (b, n) of the first score array is in the block of point n / 128. -/
theorem coverRl (i : S8x8192.Idx) : ∃ t : Fin cfg0.N, (cfg0.win 3).flush t = true ∧ i ∈ ((cfg0.win 3).blk t).view.set := by
  have hi0 : (i 0).val < 8 := (i 0).isLt
  have hi1 : (i 1).val < 8192 := (i 1).isLt
  have hN : cfg0.N = 64 := N_0
  obtain ⟨t, ht⟩ : ∃ t : Fin cfg0.N, t.val = (i 1).val / 128 := ⟨⟨(i 1).val / 128, by rw [hN]; omega⟩, rfl⟩
  obtain ⟨-, -, -, -, -, -, -, -, -, f0, f1, -, -⟩ := idx_facts t
  refine ⟨t, flush0_3 t, ?_⟩
  rw [mem_blkRl]
  intro a
  match a with
  | ⟨0, _⟩ => show win0_3.index t (0 : Fin 2) * 8 ≤ (i 0).val ∧ (i 0).val < win0_3.index t (0 : Fin 2) * 8 + 8; omega
  | ⟨1, _⟩ => show win0_3.index t (1 : Fin 2) * 128 ≤ (i 1).val ∧ (i 1).val < win0_3.index t (1 : Fin 2) * 128 + 128; omega

/-- Likewise of the second score array. -/
theorem coverFk (i : S8x8192.Idx) : ∃ t : Fin cfg0.N, (cfg0.win 4).flush t = true ∧ i ∈ ((cfg0.win 4).blk t).view.set := by
  have hi0 : (i 0).val < 8 := (i 0).isLt
  have hi1 : (i 1).val < 8192 := (i 1).isLt
  have hN : cfg0.N = 64 := N_0
  obtain ⟨t, ht⟩ : ∃ t : Fin cfg0.N, t.val = (i 1).val / 128 := ⟨⟨(i 1).val / 128, by rw [hN]; omega⟩, rfl⟩
  obtain ⟨-, -, -, -, -, -, -, -, -, -, -, g0, g1⟩ := idx_facts t
  refine ⟨t, flush0_4 t, ?_⟩
  rw [mem_blkFk]
  intro a
  match a with
  | ⟨0, _⟩ => show win0_4.index t (0 : Fin 2) * 8 ≤ (i 0).val ∧ (i 0).val < win0_4.index t (0 : Fin 2) * 8 + 8; omega
  | ⟨1, _⟩ => show win0_4.index t (1 : Fin 2) * 128 ≤ (i 1).val ∧ (i 1).val < win0_4.index t (1 : Fin 2) * 128 + 128; omega

/-- After the region the two score arrays hold the arrays of row cosines. -/
theorem finalRl (c : Dev nD) : (dats m 0 c).arrAt 3 cfg0.N = scoresRl m c :=
  (dats m 0 c).arrAt_eq_of_cover 3 (scoresRl m c) (fun t _ => flushedRl_eq m c t) coverRl

theorem finalFk (c : Dev nD) : (dats m 0 c).arrAt 4 cfg0.N = scoresFk m c :=
  (dats m 0 c).arrAt_eq_of_cover 4 (scoresFk m c) (fun t _ => flushedFk_eq m c t) coverFk

/-! ## The host operation after the region, and the run -/

/-- The result buffer is none of the region's arrays and is not scoped: the run's post states it as the lines after
    the region leave it. -/
theorem result_bypasses : main_v1 ∈ Pipeline.restRefs sig spec0 :=
  Pipeline.mem_restRefs_of main_v1 rfl (by decide)

/-- After the one line that follows the region the result buffer holds the two score arrays side by side. -/
theorem result_eq (c : Dev nD) :
    Pipeline.afterTail₀ cfgs (dats m) 0 (V0 m) [hostOps1] c main_v1
      = scoresSideBySide (m ((c.tc : Thread nD τ).loc main_arg0)) (m ((c.tc : Thread nD τ).loc main_arg1)) (m ((c.tc : Thread nD τ).loc main_arg2)) := by
  unfold Pipeline.afterTail₀
  show StableHlo.after hostOps1 _ (Proc.devRef .tc main_v1) = _
  after_results
  rw [Pipeline.withArrays_arr spec0 launch0.win.arr_inj c _ _ 3, Pipeline.withArrays_arr spec0 launch0.win.arr_inj c _ _ 4,
    finalRl, finalFk]
  rfl

/-- THE RUN, READ: every weakly fair execution of the kernel program terminates with the result buffer at the two
    arrays of row cosines side by side, and the arguments unchanged. -/
theorem run : θ_run defs (onTc (τ := τ) (main (F := Ideal))) ⟨m, fun _ => 0, ρ⟩ fun r => ∀ c : Dev nD,
      r.2.mem ((c.tc : Thread nD τ).loc main_v1)
        = scoresSideBySide (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).2 main_v1 result_bypasses).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.ArrayScores

end
-- ==== Proof.lean ====
/-
  Row-wise cosine scores: a tiled kernel against its whole-array reference, equal over the extended reals.

  Both programs take three arrays s, h_rl, h_fk of 8 x 8192 rows of 512 numbers. Each row is divided by its floored
  Euclidean norm — the larger of the square root of the sum of its squares and a small positive floor, the same
  single-precision word in both programs — and the result has, at (b, n), the sum over the 512 positions of the
  products of the normalised entries of row (b, n) of s with those of h_rl, and at (b, 8192 + n) the same with h_fk:
  two [8, 8192] arrays of row cosines laid side by side (Proof/RowCosine.lean states this once, as `scoresSideBySide`).

  The reference computes it on whole arrays (Proof/RefScores.lean reads its host operations entry by entry). The
  kernel walks the 8192 rows in 64 blocks of 128, computing each block's scores from the three input blocks alone
  (Proof/BlockScores.lean); a row's cosine reads nothing outside the row, so block t of the scores is block t of the
  whole array of row cosines, the 64 blocks cover each score array, and one host operation lays the two side by side
  (Proof/ArrayScores.lean). The two sides apply the same operations to the same numbers in the same order along each
  row, so no algebraic law and no finiteness of the inputs is used: the equality holds at every extended real.

  The three frames: the kernel programs' by their generated frame certificates, the reference's by its run with the
  result dropped. The idealized kernel is the kernel's own text read at the ideal values (no rewrite was applied),
  so the preservation claim is trivial.
-/
import proofs.«136947_j73598559584743_1_alg».proof.Defs
import proofs.«136947_j73598559584743_1_alg».proof.Proof.Gen.Kernel
import proofs.«136947_j73598559584743_1_alg».proof.Proof.Gen.Kernel.Skeleton
import proofs.«136947_j73598559584743_1_alg».proof.Proof.Gen.Kernel.Launch
import proofs.«136947_j73598559584743_1_alg».proof.Proof.Gen.Kernel.Points
import proofs.«136947_j73598559584743_1_alg».proof.Proof.Gen.Kernel.Frame
import proofs.«136947_j73598559584743_1_alg».proof.Proof.Gen.KernelIdeal
import proofs.«136947_j73598559584743_1_alg».proof.Proof.Gen.KernelIdeal.Skeleton
import proofs.«136947_j73598559584743_1_alg».proof.Proof.Gen.KernelIdeal.Launch
import proofs.«136947_j73598559584743_1_alg».proof.Proof.Gen.KernelIdeal.Points
import proofs.«136947_j73598559584743_1_alg».proof.Proof.Gen.KernelIdeal.Frame
import proofs.«136947_j73598559584743_1_alg».proof.Proof.Gen.ReferenceIdeal
import proofs.«136947_j73598559584743_1_alg».proof.Proof.Gen.Pre_finite_inputs
import proofs.«136947_j73598559584743_1_alg».proof.Proof.RefRunP
import proofs.«136947_j73598559584743_1_alg».proof.Proof.RefReadP
import proofs.«136947_j73598559584743_1_alg».proof.Proof.RefScores
import proofs.«136947_j73598559584743_1_alg».proof.Proof.ArrayScores
import Idealize.ShloMosaic.Adequacy
import Idealize.ShloMosaic.Init

noncomputable section

namespace Cert.Proof

open Idealize.ShloMosaic Idealize.ShloMosaic.TcCoe Idealize.SL.Sem Cert.RowCosine

theorem frame_kernel : Cert.frame_Kernel := fun m ρ _ => Cert.Kernel.Gen.frame m ρ

theorem frame_kernelIdeal : Cert.frame_KernelIdeal := fun m ρ _ => Cert.KernelIdeal.Gen.frame m ρ

/-- The reference terminates with its arguments unchanged: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories agreeing on the three arguments both programs end with the result buffer at the two arrays of row
    cosines of those arguments side by side: the kernel program by its run read block by block, the reference by its
    run read operation by operation. -/
theorem algebraic : Cert.algebraic_KernelIdeal_ReferenceIdeal := by
  intro m ρ m' ρ' _ hagree
  refine ⟨fun c => scoresSideBySide (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.ArrayScores.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v28_eq]
  unfold Cert.ReferenceIdeal.ReadP.val_main_v28
  rw [Cert.ReferenceIdeal.RefScores.scoresAB_eq, Cert.ReferenceIdeal.RefScores.scoresAC_eq,
    (hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
